-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S262144x64 : Shape := ⟨2, ![262144, 64]⟩
abbrev S262144 : Shape := ⟨1, ![262144]⟩
abbrev S4096 : Shape := ⟨1, ![4096]⟩
abbrev S8x4096 : Shape := ⟨2, ![8, 4096]⟩
abbrev S4096x8 : Shape := ⟨2, ![4096, 8]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg5 : FVec F S4096x8 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg5
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S4x2048x4096 .f32) (main_arg1 : IVec S262144x64 32) (main_arg2 : FVec F S262144 .f32) (main_arg3 : FVec F S4096 .f32) (main_arg4 : FVec F S8x4096 .f32) (main_arg5 : FVec F S4096x8 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg4
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg5 main_v13 main_v16
-- ==== Kernel.lean ====
abbrev S4x2048x4096 : Shape := ⟨3, ![4, 2048, 4096]⟩
abbrev S262144x64 : Shape := ⟨2, ![262144, 64]⟩
abbrev S262144 : Shape := ⟨1, ![262144]⟩
abbrev S4096 : Shape := ⟨1, ![4096]⟩
abbrev S8x4096 : Shape := ⟨2, ![8, 4096]⟩
abbrev S4096x8 : Shape := ⟨2, ![4096, 8]⟩
abbrev S16 : Shape := ⟨1, ![16]⟩
abbrev S8192x4096 : Shape := ⟨2, ![8192, 4096]⟩
abbrev S_ : Shape := ⟨0, ![]⟩
abbrev S262144x64x1 : Shape := ⟨3, ![262144, 64, 1]⟩
abbrev S262144x1 : Shape := ⟨2, ![262144, 1]⟩
abbrev S4096x4096 : Shape := ⟨2, ![4096, 4096]⟩
abbrev S1x4096 : Shape := ⟨2, ![1, 4096]⟩
abbrev S1024x4096 : Shape := ⟨2, ![1024, 4096]⟩
abbrev S4096x512 : Shape := ⟨2, ![4096, 512]⟩
abbrev S1x512 : Shape := ⟨2, ![1, 512]⟩
abbrev S8x512 : Shape := ⟨2, ![8, 512]⟩
abbrev S1024x512 : Shape := ⟨2, ![1024, 512]⟩
abbrev S1024x8 : Shape := ⟨2, ![1024, 8]⟩

abbrev nBuf : Space → Nat
  | .hbm => 31
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S262144x64, .i32⟩
  | .hbm, ⟨2, _⟩ => ⟨S262144, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S16, .f32⟩
  | .hbm, ⟨7, _⟩ => ⟨S8192x4096, .f32⟩
  | .hbm, ⟨8, _⟩ => ⟨S8192x4096, .bf16⟩
  | .hbm, ⟨9, _⟩ => ⟨S_, .i32⟩
  | .hbm, ⟨10, _⟩ => ⟨S262144x64, .i32⟩
  | .hbm, ⟨11, _⟩ => ⟨S262144x64, .i1⟩
  | .hbm, ⟨12, _⟩ => ⟨S_, .i32⟩
  | .hbm, ⟨13, _⟩ => ⟨S262144x64, .i32⟩
  | .hbm, ⟨14, _⟩ => ⟨S262144x64, .i32⟩
  | .hbm, ⟨15, _⟩ => ⟨S262144x64, .i32⟩
  | .hbm, ⟨16, _⟩ => ⟨S262144x64x1, .i32⟩
  | .hbm, ⟨17, _⟩ => ⟨S262144x64, .f32⟩
  | .hbm, ⟨18, _⟩ => ⟨S262144x1, .f32⟩
  | .hbm, ⟨19, _⟩ => ⟨S262144x64, .f32⟩
  | .hbm, ⟨20, _⟩ => ⟨S262144x64, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S1x4096, .f32⟩
  | .hbm, ⟨25, _⟩ => ⟨S4096x8, .f32⟩
  | .hbm, ⟨26, _⟩ => ⟨S4096x8, .bf16⟩
  | .hbm, ⟨27, _⟩ => ⟨S8x4096, .f32⟩
  | .hbm, ⟨28, _⟩ => ⟨S8x4096, .bf16⟩
  | .hbm, ⟨29, _⟩ => ⟨S8192x4096, .f32⟩
  | .hbm, ⟨30, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S4096x8, .bf16⟩
  | .local _ .vmem, ⟨7, _⟩ => ⟨S8x512, .bf16⟩
  | .local _ .vmem, ⟨8, _⟩ => ⟨S8x512, .bf16⟩
  | .local _ .vmem, ⟨9, _⟩ => ⟨S1024x512, .f32⟩
  | .local _ .vmem, ⟨10, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4096x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  bitsLt_bf16_f32 : FTy.bits .bf16 < FTy.bits .f32
  bcast_S_S262144x64 : S_.BroadcastsInDim S262144x64 (![] : Fin 0 → Fin S262144x64.rank)
  bcast_S262144x64_S262144x64x1_0_1 : S262144x64.BroadcastsInDim S262144x64x1 (![0, 1] : Fin 2 → Fin S262144x64x1.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  transposes_S4096x4096_S4096x4096_1_0 : S4096x4096.Transposes [1, 0] S4096x4096
  shapeCasts_S4096_S1x4096 : S4096.ShapeCasts S1x4096
  transposes_S8x4096_S4096x8_1_0 : S8x4096.Transposes [1, 0] S4096x8
  transposes_S4096x8_S8x4096_1_0 : S4096x8.Transposes [1, 0] S8x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  gather_S16_S262144x64x1_S262144x64_n_0_n_n_0_2_1_wf : GatherDims.WF S16 S262144x64x1 S262144x64 [] [0] [] [0] [] 2 ![1]
  dot_S1024x4096_S4096x512_S1024x512_1_0_0_1_n_n_wf : DotDims.WF S1024x4096 S4096x512 S1024x512 [1] [0] [0] [1] [] []
  dot_S1024x4096_S4096x8_S1024x8_1_0_0_1_n_n_wf : DotDims.WF S1024x4096 S4096x8 S1024x8 [1] [0] [0] [1] [] []
  dot_S1024x8_S8x512_S1024x512_1_0_0_1_n_n_wf : DotDims.WF S1024x8 S8x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x8.size a ≤ S4096x8.size a
  hwx0_3 : ∀ i : grid0.Coords, EltTy.bits .bf16 = 32 ∨ (Rect.block (s := S4096x8) S4096x8.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x4096.size a
  hwx0_4 : ∀ i : grid0.Coords, EltTy.bits .bf16 = 32 ∨ (Rect.block (s := S8x4096) S8x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)

variable [Facts₀]

def gather_S16_S262144x64x1_S262144x64_n_0_n_n_0_2_1 : GatherDims S16 S262144x64x1 S262144x64 where
  offsetDims := []
  collapsedSliceDims := [0]
  operandBatchingDims := []
  startIndicesBatchingDims := []
  startIndexMap := [0]
  indexVectorDim := 2
  sliceSizes := ![1]
  wf := gather_S16_S262144x64x1_S262144x64_n_0_n_n_0_2_1_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf
def dot_S1024x4096_S4096x8_S1024x8_1_0_0_1_n_n : DotDims S1024x4096 S4096x8 S1024x8 where
  lhsContracting := [1]
  rhsContracting := [0]
  lhsNonContracting := [0]
  rhsNonContracting := [1]
  lhsBatch := []
  rhsBatch := []
  wf := dot_S1024x4096_S4096x8_S1024x8_1_0_0_1_n_n_wf
def dot_S1024x8_S8x512_S1024x512_1_0_0_1_n_n : DotDims S1024x8 S8x512 S1024x512 where
  lhsContracting := [1]
  rhsContracting := [0]
  lhsNonContracting := [0]
  rhsNonContracting := [1]
  lhsBatch := []
  rhsBatch := []
  wf := dot_S1024x8_S8x512_S1024x512_1_0_0_1_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4096x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S8x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S262144x64 : Shape := ⟨2, ![262144, 64]⟩
abbrev S262144 : Shape := ⟨1, ![262144]⟩
abbrev S4096 : Shape := ⟨1, ![4096]⟩
abbrev S8x4096 : Shape := ⟨2, ![8, 4096]⟩
abbrev S4096x8 : Shape := ⟨2, ![4096, 8]⟩
abbrev S16 : Shape := ⟨1, ![16]⟩
abbrev S_ : Shape := ⟨0, ![]⟩
abbrev S262144x64x1 : Shape := ⟨3, ![262144, 64, 1]⟩
abbrev S262144x1 : Shape := ⟨2, ![262144, 1]⟩
abbrev S4096x4096 : Shape := ⟨2, ![4096, 4096]⟩
abbrev S1x1x4096 : Shape := ⟨3, ![1, 1, 4096]⟩
abbrev S4x2048x8 : Shape := ⟨3, ![4, 2048, 8]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S262144x64, .i32⟩
  | .hbm, ⟨2, _⟩ => ⟨S262144, .f32⟩
  | .hbm, ⟨3, _⟩ => ⟨S4096, .f32⟩
  | .hbm, ⟨4, _⟩ => ⟨S8x4096, .f32⟩
  | .hbm, ⟨5, _⟩ => ⟨S4096x8, .f32⟩
  | .hbm, ⟨6, _⟩ => ⟨S16, .f32⟩
  | .hbm, ⟨7, _⟩ => ⟨S_, .i32⟩
  | .hbm, ⟨8, _⟩ => ⟨S262144x64, .i32⟩
  | .hbm, ⟨9, _⟩ => ⟨S262144x64, .i1⟩
  | .hbm, ⟨10, _⟩ => ⟨S_, .i32⟩
  | .hbm, ⟨11, _⟩ => ⟨S262144x64, .i32⟩
  | .hbm, ⟨12, _⟩ => ⟨S262144x64, .i32⟩
  | .hbm, ⟨13, _⟩ => ⟨S262144x64, .i32⟩
  | .hbm, ⟨14, _⟩ => ⟨S262144x64x1, .i32⟩
  | .hbm, ⟨15, _⟩ => ⟨S262144x64, .f32⟩
  | .hbm, ⟨16, _⟩ => ⟨S262144x1, .f32⟩
  | .hbm, ⟨17, _⟩ => ⟨S262144x64, .f32⟩
  | .hbm, ⟨18, _⟩ => ⟨S262144x64, .f32⟩
  | .hbm, ⟨19, _⟩ => ⟨S4096x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S4x2048x8, .f32⟩
  | .hbm, ⟨25, _⟩ => ⟨S4x2048x4096, .f32⟩
  | .hbm, ⟨26, _⟩ => ⟨S_, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S262144x64 : S_.BroadcastsInDim S262144x64 (![] : Fin 0 → Fin S262144x64.rank)
  bcast_S262144x64_S262144x64x1_0_1 : S262144x64.BroadcastsInDim S262144x64x1 (![0, 1] : Fin 2 → Fin S262144x64x1.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  gather_S16_S262144x64x1_S262144x64_n_0_n_n_0_2_1_wf : GatherDims.WF S16 S262144x64x1 S262144x64 [] [0] [] [0] [] 2 ![1]
  dot_S4x2048x4096_S4096x4096_S4x2048x4096_2_1_01_0_n_n_wf : DotDims.WF S4x2048x4096 S4096x4096 S4x2048x4096 [2] [1] [0, 1] [0] [] []
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []

variable [Facts₀]

def gather_S16_S262144x64x1_S262144x64_n_0_n_n_0_2_1 : GatherDims S16 S262144x64x1 S262144x64 where
  offsetDims := []
  collapsedSliceDims := [0]
  operandBatchingDims := []
  startIndicesBatchingDims := []
  startIndexMap := [0]
  indexVectorDim := 2
  sliceSizes := ![1]
  wf := gather_S16_S262144x64x1_S262144x64_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf

class Facts : Prop extends Facts₀ where

variable [Facts]
-- ==== Proof.Spec.lean ====
/-
  The function both programs compute, entry by entry, over the extended reals.

  With W the dequantised 4096 × 4096 weight, for a row x of the input (one of 4 × 2048 rows of length 4096) and an
  output column o, the entry is
      (∑ q, x q · W (o, q)  +  bias o)  +  (∑ r < 8, (∑ q, x q · A (r, q)) · B (o, r)) · 2 .
  The reference indexes the rows of x by a pair (i, s); the kernel flattens the pair to the row number
  i · 2048 + s of an 8192-row matrix and takes every matrix transposed (Wᵀ, Aᵀ, Bᵀ, and the bias as a one-row matrix).
  `entry` is the first reading, `flatEntry` the second over the kernel's operand layouts; they agree when the operands
  are those re-layings of the same arrays (`flatEntry_eq`). No law of arithmetic is used: the two sides are the same
  sums of the same products in the same grouping, so nothing needs the inputs finite.
-/
import Idealize.ShloMosaic.PureOps.Ideal
import Idealize.ShloMosaic.Lib.ValueIdx

noncomputable section

open scoped BigOperators

namespace Cert.Adapter

open Idealize.ShloMosaic Idealize.ShloMosaic.ValueIdx

/-- The adapter's scaling factor 2, as the extended real its f32 word denotes (the same word in both programs, so it
    is never evaluated). -/
abbrev two : EReal := Ideal.ofBits .f32 0x40000000#32

/-- Entry (i, s, o) of (x · Wᵀ + bias) + ((x · Aᵀ) · Bᵀ) · 2 over the reference's layouts. -/
def entry (x : (⟨3, ![4, 2048, 4096]⟩ : Shape).Idx → EReal) (w : (⟨2, ![4096, 4096]⟩ : Shape).Idx → EReal)
    (bias : (⟨1, ![4096]⟩ : Shape).Idx → EReal) (a : (⟨2, ![8, 4096]⟩ : Shape).Idx → EReal)
    (b : (⟨2, ![4096, 8]⟩ : Shape).Idx → EReal) (i : Fin 4) (s : Fin 2048) (o : Fin 4096) : EReal :=
  (∑ q : Fin 4096, x (ix3 i s q) * w (ix2 o q) + bias (ix1 o))
    + (∑ r : Fin 8, (∑ q : Fin 4096, x (ix3 i s q) * a (ix2 r q)) * b (ix2 o r)) * two

/-- Entry (R, o) of (X · Wt + bias) + ((X · At) · Bt) · 2 over the kernel's layouts: X the 8192 flattened rows, Wt, At,
    Bt the transposed matrices, the bias a one-row matrix. -/
def flatEntry (xf : (⟨2, ![8192, 4096]⟩ : Shape).Idx → EReal) (wt : (⟨2, ![4096, 4096]⟩ : Shape).Idx → EReal)
    (bias2 : (⟨2, ![1, 4096]⟩ : Shape).Idx → EReal) (at' : (⟨2, ![4096, 8]⟩ : Shape).Idx → EReal)
    (bt : (⟨2, ![8, 4096]⟩ : Shape).Idx → EReal) (R : Fin 8192) (o : Fin 4096) : EReal :=
  (∑ q : Fin 4096, xf (ix2 R q) * wt (ix2 q o) + bias2 (ix2 (0 : Fin 1) o))
    + (∑ r : Fin 8, (∑ q : Fin 4096, xf (ix2 R q) * at' (ix2 q r)) * bt (ix2 r o)) * two

/-- Row i · 2048 + s of the flattened input. -/
def flatRow (i : Fin 4) (s : Fin 2048) : Fin 8192 := ⟨i.val * 2048 + s.val, by have := i.isLt; have := s.isLt; omega⟩

/-- When the kernel's operands are the re-layings of the reference's — row i · 2048 + s of X is row (i, s) of x, and
    each transposed matrix reads the original at the swapped index — the two readings of the entry are one number. -/
theorem flatEntry_eq {x : (⟨3, ![4, 2048, 4096]⟩ : Shape).Idx → EReal} {w : (⟨2, ![4096, 4096]⟩ : Shape).Idx → EReal}
    {bias : (⟨1, ![4096]⟩ : Shape).Idx → EReal} {a : (⟨2, ![8, 4096]⟩ : Shape).Idx → EReal}
    {b : (⟨2, ![4096, 8]⟩ : Shape).Idx → EReal}
    {xf : (⟨2, ![8192, 4096]⟩ : Shape).Idx → EReal} {wt : (⟨2, ![4096, 4096]⟩ : Shape).Idx → EReal}
    {bias2 : (⟨2, ![1, 4096]⟩ : Shape).Idx → EReal} {at' : (⟨2, ![4096, 8]⟩ : Shape).Idx → EReal}
    {bt : (⟨2, ![8, 4096]⟩ : Shape).Idx → EReal} (i : Fin 4) (s : Fin 2048) (o : Fin 4096)
    (hx : ∀ q, xf (ix2 (flatRow i s) q) = x (ix3 i s q)) (hw : ∀ q, wt (ix2 q o) = w (ix2 o q))
    (hbias : bias2 (ix2 (0 : Fin 1) o) = bias (ix1 o)) (ha : ∀ q r, at' (ix2 q r) = a (ix2 r q))
    (hb : ∀ r, bt (ix2 r o) = b (ix2 o r)) :
    flatEntry xf wt bias2 at' bt (flatRow i s) o = entry x w bias a b i s o := by
  unfold flatEntry entry
  simp only [hx, hw, hbias, ha, hb]

end Cert.Adapter

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.KerPayload.lean ====
/-
  What the kernel body stores, entry by entry, at the ideal values.

  At a grid point the body holds a 1024-row block X of the flattened input, a 512-column block Wt of the transposed
  weight, the same 512 columns of the one-row bias and of Bt, and all of At. It stores
      (X · Wt + bias) + ((X · At) · Bt) · 2 ,
  each product a `tpu.matmul` into the zero accumulator — at the ideal values the plain sum over the shared axis —, the
  bias row copied down the 1024 rows, the narrowing of X · At to bf16 the identity. So entry (p, n) of the stored
  block is
      (∑ q, X (p, q) · Wt (q, n) + bias (0, n)) + (∑ r < 8, (∑ q, X (p, q) · At (q, r)) · Bt (r, n)) · 2 .
-/
import proofs.«179643_j85890755985991_1_alg».proof.Proof.Gen.KernelIdeal.Skeleton
import proofs.«179643_j85890755985991_1_alg».proof.Proof.Spec
import proofs.«179643_j85890755985991_1_alg».proof.Proof.LibDotRowsCols
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx
open Cert.Lib.DotRowsCols Cert.Adapter

/-- The input block against the weight's column block: [1024, 4096] × [4096, 512]. -/
theorem dims_xw : RowsCols dot_S1024x4096_S4096x512_S1024x512_1_0_0_1_n_n := ⟨rfl, rfl, rfl, rfl, rfl, rfl⟩
/-- The input block against the first adapter factor: [1024, 4096] × [4096, 8]. -/
theorem dims_xa : RowsCols dot_S1024x4096_S4096x8_S1024x8_1_0_0_1_n_n := ⟨rfl, rfl, rfl, rfl, rfl, rfl⟩
/-- The hidden block against the second adapter factor's column block: [1024, 8] × [8, 512]. -/
theorem dims_hb : RowsCols dot_S1024x8_S8x512_S1024x512_1_0_0_1_n_n := ⟨rfl, rfl, rfl, rfl, rfl, rfl⟩

/-- Entry (p, n) of the block the body stores, from the five blocks it loaded. -/
theorem pay_apply (x0 : Vec Ideal S1024x4096 .bf16) (x1 : Vec Ideal S4096x512 .bf16) (x3 : Vec Ideal S4096x8 .bf16)
    (x4 : Vec Ideal S8x512 .bf16) (x2 : Vec Ideal S1x512 .f32) (p : Fin 1024) (n : Fin 512) :
    k0_pay1 (F := Ideal) x0 x1 x3 x4 x2 (ix2 p n)
      = (∑ q : Fin 4096, x0 (ix2 p q) * x1 (ix2 q n) + x2 (ix2 (0 : Fin 1) n))
        + (∑ r : Fin 8, (∑ q : Fin 4096, x0 (ix2 p q) * x3 (ix2 q r)) * x4 (ix2 r n)) * two := by
  unfold k0_pay1
  simp only [shapeCast_self]
  rw [addf_apply, addf_apply, mulf_apply, dims_xw.matmul_zero_apply, dims_hb.matmul_zero_apply,
    broadcastTo_1b_ab_apply, broadcast_apply]
  simp only [truncf_apply, dims_xa.matmul_zero_apply]
  rfl

end Cert.KernelIdeal.Body

end
-- ==== Proof.KerHost.lean ====
/-
  What the kernel's call finds in its operands, entry by entry, at the ideal values.

  Before the call the program re-lays its inputs: the input's 4 × 2048 rows are flattened to 8192 rows (row
  i · 2048 + s is row (i, s)); the weight is dequantised by the same operations as in the reference, then transposed;
  the bias becomes a one-row matrix; the two adapter factors are transposed. Every narrowing to bf16 is the identity
  on extended reals. So the call's five operand arrays read the original arrays at the re-laid index.
-/
import proofs.«179643_j85890755985991_1_alg».proof.Proof.Gen.KernelIdeal.Frame
import proofs.«179643_j85890755985991_1_alg».proof.Proof.Spec
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Cert.Adapter

section
variable {F : FTy → Type} [FloatOps F]

/-- The dequantised weight matrix W, as this program computes it from the codes and the per-block scales: the same
    operations as the reference's (wrap a negative code, pick the table entry, times the block's scale, re-lay as
    4096 × 4096). -/
def weight (codes : (⟨S262144x64, .i32⟩ : BufTy).Contents (Elt F)) (scales : (⟨S262144, .f32⟩ : BufTy).Contents (Elt F)) : (⟨S4096x4096, .f32⟩ : BufTy).Contents (Elt F) :=
  shapeCast _
    (mulf
      (Host.gather gather_S16_S262144x64x1_S262144x64_n_0_n_n_0_2_1 (fun i => FloatOps.ofBits .f32 (lit0 (S16.rowMajor i)))
        (broadcastInDim S262144x64x1 ![0, 1] bcast_S262144x64_S262144x64x1_0_1
          (select (cmpi .slt codes (broadcastInDim S262144x64 ![] bcast_S_S262144x64 (constantI S_ 32 0#32)))
            (addi codes (broadcastInDim S262144x64 ![] bcast_S_S262144x64 (constantI S_ 32 16#32))) codes)))
      (broadcastInDim S262144x64 ![0, 1] bcast_S262144x1_S262144x64_0_1 (broadcastInDim S262144x1 ![0] bcast_S262144_S262144x1_0 scales)))
    shapeCasts_S262144x64_S4096x4096

end

variable (m : (ℓ : Loc nD τ sig) → Buf (Elt Ideal) ℓ)

/-! ## The arrays, at their literal types -/

/-- The six argument arrays as launched. -/
abbrev xIn (c : Dev nD) : FVec Ideal S4x2048x4096 .f32 := m ((c : Thread nD τ).loc main_arg0)
abbrev codesIn (c : Dev nD) : IVec S262144x64 32 := m ((c : Thread nD τ).loc main_arg1)
abbrev scalesIn (c : Dev nD) : FVec Ideal S262144 .f32 := m ((c : Thread nD τ).loc main_arg2)
abbrev biasIn (c : Dev nD) : FVec Ideal S4096 .f32 := m ((c : Thread nD τ).loc main_arg3)
abbrev aIn (c : Dev nD) : FVec Ideal S8x4096 .f32 := m ((c : Thread nD τ).loc main_arg4)
abbrev bIn (c : Dev nD) : FVec Ideal S4096x8 .f32 := m ((c : Thread nD τ).loc main_arg5)

/-- The call's five operand arrays as it finds them. -/
abbrev xArr (c : Dev nD) : FVec Ideal S8192x4096 .bf16 := V m c main_v1
abbrev wArr (c : Dev nD) : FVec Ideal S4096x4096 .bf16 := V m c main_v14
abbrev biasArr (c : Dev nD) : FVec Ideal S1x4096 .f32 := V m c main_v15
abbrev aArr (c : Dev nD) : FVec Ideal S4096x8 .bf16 := V m c main_v17
abbrev bArr (c : Dev nD) : FVec Ideal S8x4096 .bf16 := V m c main_v19

/-! ## Each operand array as operations of the launched arrays -/

theorem xArr_eq (c : Dev nD) :
    xArr m c = truncf .bf16 (shapeCast S8192x4096 (xIn m c) shapeCasts_S4x2048x4096_S8192x4096) bitsLt_bf16_f32 := by
  show StableHlo.after hostOps0 (fun b => m (c, b)) (Proc.devRef .tc main_v1) = _
  after_results_simp <;> rfl

theorem wArr_eq (c : Dev nD) :
    wArr m c = truncf .bf16 (transpose S4096x4096 [1, 0] (weight (F := Ideal) (codesIn m c) (scalesIn m c)) transposes_S4096x4096_S4096x4096_1_0)
      bitsLt_bf16_f32 := by
  show StableHlo.after hostOps0 (fun b => m (c, b)) (Proc.devRef .tc main_v14) = _
  unfold weight
  after_results_simp <;> rfl

theorem biasArr_eq (c : Dev nD) : biasArr m c = shapeCast S1x4096 (biasIn m c) shapeCasts_S4096_S1x4096 := by
  show StableHlo.after hostOps0 (fun b => m (c, b)) (Proc.devRef .tc main_v15) = _
  after_results_simp <;> rfl

theorem aArr_eq (c : Dev nD) :
    aArr m c = truncf .bf16 (transpose S4096x8 [1, 0] (aIn m c) transposes_S8x4096_S4096x8_1_0) bitsLt_bf16_f32 := by
  show StableHlo.after hostOps0 (fun b => m (c, b)) (Proc.devRef .tc main_v17) = _
  after_results_simp <;> rfl

theorem bArr_eq (c : Dev nD) :
    bArr m c = truncf .bf16 (transpose S8x4096 [1, 0] (bIn m c) transposes_S4096x8_S8x4096_1_0) bitsLt_bf16_f32 := by
  show StableHlo.after hostOps0 (fun b => m (c, b)) (Proc.devRef .tc main_v19) = _
  after_results_simp <;> rfl

/-! ## Read at an entry -/

/-- Row i · 2048 + s of the flattened input is row (i, s) of the input. -/
theorem xArr_apply (c : Dev nD) (i : Fin 4) (s : Fin 2048) (q : Fin 4096) :
    xArr m c (ix2 (flatRow i s) q) = xIn m c (ix3 i s q) := by
  rw [xArr_eq]
  show shapeCast S8192x4096 (xIn m c) shapeCasts_S4x2048x4096_S8192x4096 (ix2 (flatRow i s) q) = _
  exact shapeCast_apply _ _ (ix2 (flatRow i s) q) (ix3 i s q) (by rw [Shape.rowMajor_val_three, Shape.rowMajor_val_two]; rfl)

/-- The transposed weight at (q, o) is the weight at (o, q). -/
theorem wArr_apply (c : Dev nD) (q o : Fin 4096) :
    wArr m c (ix2 q o) = weight (F := Ideal) (codesIn m c) (scalesIn m c) (ix2 o q) := by
  rw [wArr_eq]
  show transpose S4096x4096 [1, 0] (weight (F := Ideal) (codesIn m c) (scalesIn m c)) transposes_S4096x4096_S4096x4096_1_0 (ix2 q o) = _
  exact transpose_apply _ _ _ (ix2 q o) (ix2 o q) fun b => match b with | ⟨0, _⟩ => rfl | ⟨1, _⟩ => rfl

/-- The one-row bias at (0, o) is the bias at o. -/
theorem biasArr_apply (c : Dev nD) (o : Fin 4096) : biasArr m c (ix2 (0 : Fin 1) o) = biasIn m c (ix1 o) := by
  rw [biasArr_eq]
  exact shapeCast_apply _ _ (ix2 (0 : Fin 1) o) (ix1 o) (by rw [Shape.rowMajor_val_one, Shape.rowMajor_val_two]; show o.val = 0 * 4096 + o.val; omega)

/-- The transposed first adapter factor at (q, r) is A at (r, q). -/
theorem aArr_apply (c : Dev nD) (q : Fin 4096) (r : Fin 8) : aArr m c (ix2 q r) = aIn m c (ix2 r q) := by
  rw [aArr_eq]
  show transpose S4096x8 [1, 0] (aIn m c) transposes_S8x4096_S4096x8_1_0 (ix2 q r) = _
  exact transpose_apply _ _ _ (ix2 q r) (ix2 r q) fun b => match b with | ⟨0, _⟩ => rfl | ⟨1, _⟩ => rfl

/-- The transposed second adapter factor at (r, o) is B at (o, r). -/
theorem bArr_apply (c : Dev nD) (r : Fin 8) (o : Fin 4096) : bArr m c (ix2 r o) = bIn m c (ix2 o r) := by
  rw [bArr_eq]
  show transpose S8x4096 [1, 0] (bIn m c) transposes_S4096x8_S8x4096_1_0 (ix2 r o) = _
  exact transpose_apply _ _ _ (ix2 r o) (ix2 o r) fun b => match b with | ⟨0, _⟩ => rfl | ⟨1, _⟩ => rfl

/-- The call's result re-laid as 4 × 2048 rows: entry (i, s, o) is the flat array's entry (i · 2048 + s, o). -/
theorem unflatten_apply (Y : FVec Ideal S8192x4096 .f32) (i : Fin 4) (s : Fin 2048) (o : Fin 4096) :
    shapeCast S4x2048x4096 Y shapeCasts_S8192x4096_S4x2048x4096 (ix3 i s o) = Y (ix2 (flatRow i s) o) :=
  shapeCast_apply _ _ (ix3 i s o) (ix2 (flatRow i s) o) (by rw [Shape.rowMajor_val_three, Shape.rowMajor_val_two]; rfl)

end Cert.KernelIdeal.Host

end
-- ==== Proof.KerBlocks.lean ====
/-
  From the blocks the grid points write to the whole result array.

  The 8 × 8 grid's point (a, b) reads rows a · 1024 … of the flattened input, columns b · 512 … of the transposed
  weight, of the one-row bias and of Bt, and all of At, and writes block (a, b) — 1024 rows by 512 columns — of the
  result. Entry (p, n) of what it writes is entry (a · 1024 + p, b · 512 + n) of ONE function of the operand arrays,
  `flatOut`: the body's sums range over the whole shared axis, which every block carries in full. The 64 blocks tile
  the 8192 × 4096 result (entry (R, o) lies in block (R / 1024, o / 512)), so after the call the array is `flatOut`.
-/
import proofs.«179643_j85890755985991_1_alg».proof.Proof.Gen.KernelIdeal.Frame
import proofs.«179643_j85890755985991_1_alg».proof.Proof.KerPayload
import proofs.«179643_j85890755985991_1_alg».proof.Proof.KerHost
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.Pipeline Cert.Adapter Cert.KernelIdeal.Host Cert.KernelIdeal.Body

variable (m : (ℓ : Loc nD τ sig) → Buf (Elt Ideal) ℓ)

/-- The flat result as one function of the call's operand arrays: entry (R, o) is `flatEntry` there. -/
def flatOut (c : Dev nD) : FVec Ideal S8192x4096 .f32 :=
  fun j => flatEntry (xArr m c) (wArr m c) (biasArr m c) (aArr m c) (bArr m c) (j 0) (j 1)

theorem hz : (![0, 0] : Fin 2 → Nat) = fun _ => 0 := funext fun a => by fin_cases a <;> rfl

/-- An entry of the stored block is the entry of `flatEntry` at the array position (R, o) it lands on, once each
    loaded block is known to read its array at the matching positions: the input block's row is row R, the weight's,
    the bias's and Bt's columns are column o, and At is loaded whole. -/
theorem block_entry (X : FVec Ideal S8192x4096 .bf16) (Wt : FVec Ideal S4096x4096 .bf16) (Bi : FVec Ideal S1x4096 .f32)
    (At : FVec Ideal S4096x8 .bf16) (Bt : FVec Ideal S8x4096 .bf16)
    (x0 : Vec Ideal S1024x4096 .bf16) (x1 : Vec Ideal S4096x512 .bf16) (x2 : Vec Ideal S1x512 .f32)
    (x3 : Vec Ideal S4096x8 .bf16) (x4 : Vec Ideal S8x512 .bf16)
    (p : Fin 1024) (n : Fin 512) (R : Fin 8192) (o : Fin 4096)
    (h0 : ∀ q : Fin 4096, x0 (ix2 p q) = X (ix2 R q)) (h1 : ∀ q : Fin 4096, x1 (ix2 q n) = Wt (ix2 q o))
    (h2 : x2 (ix2 (0 : Fin 1) n) = Bi (ix2 (0 : Fin 1) o)) (h3 : ∀ (q : Fin 4096) (r : Fin 8), x3 (ix2 q r) = At (ix2 q r))
    (h4 : ∀ r : Fin 8, x4 (ix2 r n) = Bt (ix2 r o)) :
    k0_pay1 (F := Ideal) x0 x1 x3 x4 x2 (ix2 p n) = flatEntry X Wt Bi At Bt R o := by
  rw [pay_apply]
  unfold flatEntry
  simp only [h0, h1, h2, h3, h4]

/-- The same at any index of the stored block, its coordinates read off the index. -/
theorem block_entry_at (X : FVec Ideal S8192x4096 .bf16) (Wt : FVec Ideal S4096x4096 .bf16) (Bi : FVec Ideal S1x4096 .f32)
    (At : FVec Ideal S4096x8 .bf16) (Bt : FVec Ideal S8x4096 .bf16)
    (x0 : Vec Ideal S1024x4096 .bf16) (x1 : Vec Ideal S4096x512 .bf16) (x2 : Vec Ideal S1x512 .f32)
    (x3 : Vec Ideal S4096x8 .bf16) (x4 : Vec Ideal S8x512 .bf16)
    (y : S1024x512.Idx) (R : Fin 8192) (o : Fin 4096)
    (h0 : ∀ q : Fin 4096, x0 (ix2 (y 0) q) = X (ix2 R q)) (h1 : ∀ q : Fin 4096, x1 (ix2 q (y 1)) = Wt (ix2 q o))
    (h2 : x2 (ix2 (0 : Fin 1) (y 1)) = Bi (ix2 (0 : Fin 1) o)) (h3 : ∀ (q : Fin 4096) (r : Fin 8), x3 (ix2 q r) = At (ix2 q r))
    (h4 : ∀ r : Fin 8, x4 (ix2 r (y 1)) = Bt (ix2 r o)) :
    k0_pay1 (F := Ideal) x0 x1 x3 x4 x2 y = flatEntry X Wt Bi At Bt R o := by
  obtain ⟨p, n, rfl⟩ : ∃ (p : Fin 1024) (n : Fin 512), y = ix2 p n := ⟨y 0, y 1, eq_ix2 y⟩
  exact block_entry X Wt Bi At Bt x0 x1 x2 x3 x4 p n R o h0 h1 h2 h3 h4

/-- The printed index maps, decided over the 64 grid points: the input block moves with the result block's row
    index, the weight's, the bias's and Bt's blocks with its column index, At's block never; the result block's
    indices stay below 8. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = 0 ∧ win0_2.index t (1 : Fin 2) = win0_5.index t (1 : Fin 2)
    ∧ win0_3.index t (0 : Fin 2) = 0 ∧ win0_3.index t (1 : Fin 2) = 0
    ∧ win0_4.index t (0 : Fin 2) = 0 ∧ win0_4.index t (1 : Fin 2) = win0_5.index t (1 : Fin 2)
    ∧ win0_5.index t (0 : Fin 2) ≤ 7 ∧ win0_5.index t (1 : Fin 2) ≤ 7 :=
  (by decide +kernel : ∀ t : Fin grid0.N, _)

/-- Every one of the 8 × 8 result blocks is some grid point's. -/
theorem idx_onto : ∀ (q0 q1 : Fin 8), ∃ t : Fin cfg0.N, win0_5.index t = ![q0.val, q1.val] :=
  (by decide +kernel : ∀ (q0 q1 : Fin 8), ∃ t : Fin grid0.N, win0_5.index t = ![q0.val, q1.val])

/-- What point t writes back is block t of `flatOut`. -/
theorem flushed_eq (c : Dev nD) (t : Fin cfg0.N) :
    (dats m 0 c).flushed 5 t = ((cfg0.win 5).blk t).view.read (Elt Ideal) (flatOut m c) := by
  show (cfg0.win 5).cut (grid0.coords t) ((dats m 0 c).after 5 t) = _
  rw [after0_5]
  unfold out0_5
  rw [View.canon_unit_zero hz]
  simp only [View.ld_unit_zero (S := S1024x4096) hz, View.ld_unit_zero (S := S4096x512) hz, View.ld_unit_zero (S := S4096x8) hz,
    View.ld_unit_zero (S := S8x512) hz, View.ld_unit_zero (S := S1x512) hz]
  obtain ⟨e00, e01, e10, e11, e20, e21, e30, e31, e40, e41, -, -⟩ := idx_facts t
  funext y
  show k0_pay1 (F := Ideal) (iblk m c 0 t) (iblk m c 1 t) (iblk m c 3 t) (iblk m c 4 t) (iblk m c 2 t) y
      = flatEntry (xArr m c) (wArr m c) (biasArr m c) (aArr m c) (bArr m c) ((((cfg0.win 5).blk t).view.emb y) 0) ((((cfg0.win 5).blk t).view.emb y) 1)
  refine block_entry_at (xArr m c) (wArr m c) (biasArr m c) (aArr m c) (bArr m c)
    (iblk m c 0 t) (iblk m c 1 t) (iblk m c 2 t) (iblk m c 3 t) (iblk m c 4 t) y ((((cfg0.win 5).blk t).view.emb y) 0) ((((cfg0.win 5).blk t).view.emb y) 1) ?_ ?_ ?_ ?_ ?_
  -- the input block's row p is row a · 1024 + p of the flattened input
  · intro q
    show xArr m c (((cfg0.win 0).blk t).view.emb (ix2 (y 0) q)) = xArr m c (ix2 ((((cfg0.win 5).blk t).view.emb y) 0) q)
    refine congrArg (xArr m c) (funext fun a => Fin.ext ?_)
    match a with
    | ⟨0, _⟩ => show win0_0.index t (0 : Fin 2) * 1024 + 1 * (y 0).val = win0_5.index t (0 : Fin 2) * 1024 + 1 * (y 0).val; omega
    | ⟨1, _⟩ => show win0_0.index t (1 : Fin 2) * 4096 + 1 * q.val = q.val; omega
  -- the weight block's column n is column b · 512 + n of the transposed weight
  · intro q
    show wArr m c (((cfg0.win 1).blk t).view.emb (ix2 q (y 1))) = wArr m c (ix2 q ((((cfg0.win 5).blk t).view.emb y) 1))
    refine congrArg (wArr m c) (funext fun a => Fin.ext ?_)
    match a with
    | ⟨0, _⟩ => show win0_1.index t (0 : Fin 2) * 4096 + 1 * q.val = q.val; omega
    | ⟨1, _⟩ => show win0_1.index t (1 : Fin 2) * 512 + 1 * (y 1).val = win0_5.index t (1 : Fin 2) * 512 + 1 * (y 1).val; omega
  -- likewise the bias block's
  · show biasArr m c (((cfg0.win 2).blk t).view.emb (ix2 (0 : Fin 1) (y 1))) = biasArr m c (ix2 (0 : Fin 1) ((((cfg0.win 5).blk t).view.emb y) 1))
    refine congrArg (biasArr m c) (funext fun a => Fin.ext ?_)
    match a with
    | ⟨0, _⟩ => show win0_2.index t (0 : Fin 2) * 1 + 1 * 0 = 0; omega
    | ⟨1, _⟩ => show win0_2.index t (1 : Fin 2) * 512 + 1 * (y 1).val = win0_5.index t (1 : Fin 2) * 512 + 1 * (y 1).val; omega
  -- At is loaded whole
  · intro q r
    show aArr m c (((cfg0.win 3).blk t).view.emb (ix2 q r)) = aArr m c (ix2 q r)
    refine congrArg (aArr m c) (funext fun a => Fin.ext ?_)
    match a with
    | ⟨0, _⟩ => show win0_3.index t (0 : Fin 2) * 4096 + 1 * q.val = q.val; omega
    | ⟨1, _⟩ => show win0_3.index t (1 : Fin 2) * 8 + 1 * r.val = r.val; omega
  -- and Bt's block's column n is column b · 512 + n
  · intro r
    show bArr m c (((cfg0.win 4).blk t).view.emb (ix2 r (y 1))) = bArr m c (ix2 r ((((cfg0.win 5).blk t).view.emb y) 1))
    refine congrArg (bArr m c) (funext fun a => Fin.ext ?_)
    match a with
    | ⟨0, _⟩ => show win0_4.index t (0 : Fin 2) * 8 + 1 * r.val = r.val; omega
    | ⟨1, _⟩ => show win0_4.index t (1 : Fin 2) * 512 + 1 * (y 1).val = win0_5.index t (1 : Fin 2) * 512 + 1 * (y 1).val; omega

/-- An index of the result array is in point t's block iff each coordinate is in the block's range on its axis. -/
theorem mem_blk (t : Fin cfg0.N) (i : S8192x4096.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v20).slice (win0_5.rect t)).set ↔ _
  rw [View.set_slice_whole, Rect.mem_set_unit]
  exact Iff.rfl

/-- The 64 blocks tile the result: entry (R, o) lies in the block of the point whose block indices are
    (R / 1024, o / 512), and every point writes its block back. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_5.index t (0 : Fin 2) = (i 0).val / 1024 := congrFun ht 0
  have q1 : win0_5.index t (1 : Fin 2) = (i 1).val / 512 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- The result array after the call is `flatOut` of the operand arrays. -/
theorem final (c : Dev nD) : (dats m 0 c).arrAt 5 cfg0.N = flatOut m c :=
  (dats m 0 c).arrAt_eq_of_cover 5 (flatOut m c) (fun t _ => flushed_eq m c t) cover

end Cert.KernelIdeal.Blocks

end
-- ==== Proof.KerRun.lean ====
/-
  The kernel program's run, with its result named.

  The generated frame run leaves the call's result array at what the proof data compute — by the blocks module the one
  function `flatOut` of the operand arrays — and every other unscoped buffer as the one operation after the call leaves
  it; that operation re-lays the 8192 × 4096 result as 4 × 2048 rows of 4096. Read at an entry through the operand
  arrays' own re-layings, the program's result is `Adapter.entry` of the six launched arrays, the weight the one the
  program dequantises.
-/
import proofs.«179643_j85890755985991_1_alg».proof.Proof.KerBlocks
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.Adapter Cert.KernelIdeal.Host Cert.KernelIdeal.Blocks

variable (m : (ℓ : Loc nD τ sig) → Buf (Elt Ideal) ℓ) (ρ : Dev nD → PrngReg)

/-- The program's result: the flat result re-laid as 4 × 2048 rows. -/
def out (c : Dev nD) : FVec Ideal S4x2048x4096 .f32 :=
  shapeCast S4x2048x4096 (flatOut m c) shapeCasts_S8192x4096_S4x2048x4096

/-- What the operation after the call leaves in the result buffer. -/
theorem tail_eq (c : Dev nD) :
    Pipeline.afterTail₀ cfgs (dats m) 0 (V0 m) [hostOps1] c main_v21 = out m c := by
  unfold Pipeline.afterTail₀ out
  show StableHlo.after hostOps1 _ (Proc.devRef .tc main_v21) = _
  after_results
  rw [Pipeline.withArrays_arr spec0 launch0.win.arr_inj c _ _ 5, final]
  rfl

/-- Every weakly fair execution of the program terminates with the result buffer at `out` and the six argument
    arrays unchanged. -/
theorem run : θ_run defs (onTc (τ := τ) (main (F := Ideal))) ⟨m, fun _ => 0, ρ⟩ fun r => ∀ c : Dev nD,
      r.2.mem ((c.tc : Thread nD τ).loc main_v21) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-- Entry (i, s, o) of the program's result, over the launched arrays. -/
theorem out_apply (c : Dev nD) (i : Fin 4) (s : Fin 2048) (o : Fin 4096) :
    out m c (ix3 i s o)
      = entry (xIn m c) (weight (F := Ideal) (codesIn m c) (scalesIn m c)) (biasIn m c) (aIn m c) (bIn m c) i s o := by
  unfold out
  rw [unflatten_apply]
  show flatEntry (xArr m c) (wArr m c) (biasArr m c) (aArr m c) (bArr m c) (flatRow i s) o = _
  exact flatEntry_eq i s o (fun q => xArr_apply m c i s q) (fun q => wArr_apply m c q o) (biasArr_apply m c o)
    (fun q r => aArr_apply m c q r) (fun r => bArr_apply m c r o)

end Cert.KernelIdeal.Result

end
-- ==== Proof.RefOps.lean ====
import proofs.«179643_j85890755985991_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The program's 24 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S262144x64 ![] bcast_S_S262144x64 : (⟨S_, .i32⟩ : BufTy).Contents (Elt F) → (⟨S262144x64, .i32⟩ : BufTy).Contents (Elt F)),
    binary main_arg1 main_v0 main_v1 (cmpi .slt : (⟨S262144x64, .i32⟩ : BufTy).Contents (Elt F) → (⟨S262144x64, .i32⟩ : BufTy).Contents (Elt F) → (⟨S262144x64, .i1⟩ : BufTy).Contents (Elt F)),
    nullary main_c_0 (constantI S_ 32 16#32),
    unary main_c_0 main_v2 (broadcastInDim S262144x64 ![] bcast_S_S262144x64 : (⟨S_, .i32⟩ : BufTy).Contents (Elt F) → (⟨S262144x64, .i32⟩ : BufTy).Contents (Elt F)),
    binary main_arg1 main_v2 main_v3 (addi : (⟨S262144x64, .i32⟩ : BufTy).Contents (Elt F) → (⟨S262144x64, .i32⟩ : BufTy).Contents (Elt F) → (⟨S262144x64, .i32⟩ : BufTy).Contents (Elt F)),
    ternary main_v1 main_v3 main_arg1 main_v4 (select : (⟨S262144x64, .i1⟩ : BufTy).Contents (Elt F) → (⟨S262144x64, .i32⟩ : BufTy).Contents (Elt F) → (⟨S262144x64, .i32⟩ : BufTy).Contents (Elt F) → (⟨S262144x64, .i32⟩ : BufTy).Contents (Elt F)),
    unary main_v4 main_v5 (broadcastInDim S262144x64x1 ![0, 1] bcast_S262144x64_S262144x64x1_0_1 : (⟨S262144x64, .i32⟩ : BufTy).Contents (Elt F) → (⟨S262144x64x1, .i32⟩ : BufTy).Contents (Elt F)),
    binary main_cst main_v5 main_v6 ((fun x i => Host.gather gather_S16_S262144x64x1_S262144x64_n_0_n_n_0_2_1 x i) : (⟨S16, .f32⟩ : BufTy).Contents (Elt F) → (⟨S262144x64x1, .i32⟩ : BufTy).Contents (Elt F) → (⟨S262144x64, .f32⟩ : BufTy).Contents (Elt F)),
    unary main_arg2 main_v7 (broadcastInDim S262144x1 ![0] bcast_S262144_S262144x1_0 : (⟨S262144, .f32⟩ : BufTy).Contents (Elt F) → (⟨S262144x1, .f32⟩ : BufTy).Contents (Elt F)),
    unary main_v7 main_v8 (broadcastInDim S262144x64 ![0, 1] bcast_S262144x1_S262144x64_0_1 : (⟨S262144x1, .f32⟩ : BufTy).Contents (Elt F) → (⟨S262144x64, .f32⟩ : BufTy).Contents (Elt F)),
    binary main_v6 main_v8 main_v9 (mulf : (⟨S262144x64, .f32⟩ : BufTy).Contents (Elt F) → (⟨S262144x64, .f32⟩ : BufTy).Contents (Elt F) → (⟨S262144x64, .f32⟩ : BufTy).Contents (Elt F)),
    reshape main_v9 main_v10 rfl shapeCasts_S262144x64_S4096x4096,
    binary main_arg0 main_v10 main_v11 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg3 main_v12 (broadcastInDim S1x1x4096 ![2] bcast_S4096_S1x1x4096_2 : (⟨S4096, .f32⟩ : BufTy).Contents (Elt F) → (⟨S1x1x4096, .f32⟩ : BufTy).Contents (Elt F)),
    unary main_v12 main_v13 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v11 main_v13 main_v14 (addf : (⟨S4x2048x4096, .f32⟩ : BufTy).Contents (Elt F) → (⟨S4x2048x4096, .f32⟩ : BufTy).Contents (Elt F) → (⟨S4x2048x4096, .f32⟩ : BufTy).Contents (Elt F)),
    binary main_arg0 main_arg4 main_v15 ((fun l r => Host.dotGeneral dot_S4x2048x4096_S8x4096_S4x2048x8_2_1_01_0_n_n none l r) : (⟨S4x2048x4096, .f32⟩ : BufTy).Contents (Elt F) → (⟨S8x4096, .f32⟩ : BufTy).Contents (Elt F) → (⟨S4x2048x8, .f32⟩ : BufTy).Contents (Elt F)),
    binary main_v15 main_arg5 main_v16 ((fun l r => Host.dotGeneral dot_S4x2048x8_S4096x8_S4x2048x4096_2_1_01_0_n_n none l r) : (⟨S4x2048x8, .f32⟩ : BufTy).Contents (Elt F) → (⟨S4096x8, .f32⟩ : BufTy).Contents (Elt F) → (⟨S4x2048x4096, .f32⟩ : BufTy).Contents (Elt F)),
    nullary main_cst_1 (constant S_ .f32 0x40000000#32),
    unary main_cst_1 main_v17 (broadcastInDim S4x2048x4096 ![] bcast_S_S4x2048x4096 : (⟨S_, .f32⟩ : BufTy).Contents (Elt F) → (⟨S4x2048x4096, .f32⟩ : BufTy).Contents (Elt F)),
    binary main_v16 main_v17 main_v18 (mulf : (⟨S4x2048x4096, .f32⟩ : BufTy).Contents (Elt F) → (⟨S4x2048x4096, .f32⟩ : BufTy).Contents (Elt F) → (⟨S4x2048x4096, .f32⟩ : BufTy).Contents (Elt F)),
    binary main_v14 main_v18 main_v19 (addf : (⟨S4x2048x4096, .f32⟩ : BufTy).Contents (Elt F) → (⟨S4x2048x4096, .f32⟩ : BufTy).Contents (Elt F) → (⟨S4x2048x4096, .f32⟩ : BufTy).Contents (Elt F)) ]

/-- The program's body is the sequence of those operations. -/
theorem main_eq (c : Dev nD) : main (F := F) c = seq ops := rfl

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub .., binary_bufs_sub .., unary_bufs_sub .., unary_bufs_sub .., binary_bufs_sub .., binary_bufs_sub .., binary_bufs_sub .., nullary_bufs_sub .., unary_bufs_sub .., binary_bufs_sub .., binary_bufs_sub ..⟩

end Cert.ReferenceIdeal.HostRun

end
-- ==== Proof.RefRun.lean ====
/-
  The reference as a straight line of host operations, and what a run of it leaves.

  The reference dequantises the weight — each 4-bit code (wrapped if negative) picks one of sixteen table values,
  times its block's scale, the 262144 × 64 products re-laid as a 4096 × 4096 matrix W — and returns, for the input x,
      (x · Wᵀ + bias) + ((x · Aᵀ) · Bᵀ) · 2 ,
  every product a `dot_general` contracting the operands' last axes. Over the program's body read as the list of
  its twenty-four operations, every weakly fair run terminates with the result buffer at that composed term of the
  argument arrays, and the argument arrays as they were.
-/
import proofs.«179643_j85890755985991_1_alg».proof.Proof.RefOps
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The dequantised weight matrix W, as the reference computes it from the codes and the per-block scales: a code
    below zero is raised by sixteen, the code picks its entry of the sixteen-value table, the entry is multiplied by
    its block's scale, and the 262144 blocks of 64 are re-laid row-major as 4096 rows of 4096. -/
def weight (codes : (⟨S262144x64, .i32⟩ : BufTy).Contents (Elt F)) (scales : (⟨S262144, .f32⟩ : BufTy).Contents (Elt F)) : (⟨S4096x4096, .f32⟩ : BufTy).Contents (Elt F) :=
  shapeCast _
    (mulf
      (Host.gather gather_S16_S262144x64x1_S262144x64_n_0_n_n_0_2_1 (fun i => FloatOps.ofBits .f32 (lit0 (S16.rowMajor i)))
        (broadcastInDim S262144x64x1 ![0, 1] bcast_S262144x64_S262144x64x1_0_1
          (select (cmpi .slt codes (broadcastInDim S262144x64 ![] bcast_S_S262144x64 (constantI S_ 32 0#32)))
            (addi codes (broadcastInDim S262144x64 ![] bcast_S_S262144x64 (constantI S_ 32 16#32))) codes)))
      (broadcastInDim S262144x64 ![0, 1] bcast_S262144x1_S262144x64_0_1 (broadcastInDim S262144x1 ![0] bcast_S262144_S262144x1_0 scales)))
    shapeCasts_S262144x64_S4096x4096

/-- The reference's result from the input, a weight matrix, the bias and the two adapter factors:
    (x · Wᵀ + bias) + ((x · Aᵀ) · Bᵀ) · 2. -/
def result (x : (⟨S4x2048x4096, .f32⟩ : BufTy).Contents (Elt F)) (w : (⟨S4096x4096, .f32⟩ : BufTy).Contents (Elt F)) (bias : (⟨S4096, .f32⟩ : BufTy).Contents (Elt F))
    (a : (⟨S8x4096, .f32⟩ : BufTy).Contents (Elt F)) (b : (⟨S4096x8, .f32⟩ : BufTy).Contents (Elt F)) : (⟨S4x2048x4096, .f32⟩ : BufTy).Contents (Elt F) :=
  addf
    (addf (Host.dotGeneral dot_S4x2048x4096_S4096x4096_S4x2048x4096_2_1_01_0_n_n none x w)
      (broadcastInDim S4x2048x4096 ![0, 1, 2] bcast_S1x1x4096_S4x2048x4096_0_1_2 (broadcastInDim S1x1x4096 ![2] bcast_S4096_S1x1x4096_2 bias)))
    (mulf
      (Host.dotGeneral dot_S4x2048x8_S4096x8_S4x2048x4096_2_1_01_0_n_n none
        (Host.dotGeneral dot_S4x2048x4096_S8x4096_S4x2048x8_2_1_01_0_n_n none x a) b)
      (broadcastInDim S4x2048x4096 ![] bcast_S_S4x2048x4096 (constant S_ .f32 0x40000000#32)))

theorem scopedRefs_eq : (Finset.univ.filter fun b : Ref sig .tc => b.isScoped) = ∅ := by decide
theorem scopedSems_eq : (Finset.univ.filter fun sm : SemLoc sig => sm.isScoped .tc) = ∅ := by decide

/-- On the one device, at any float instance, from any memory with zero counters: every weakly fair execution of the
    program terminates with the result buffer at `result` of the launch contents of the arguments (the weight matrix
    the one `weight` makes of the codes and scales), and the six argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = result (m ((c.tc : Thread nD τ).loc main_arg0))
              (weight (m ((c.tc : Thread nD τ).loc main_arg1)) (m ((c.tc : Thread nD τ).loc main_arg2)))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v19).trans (by unfold result weight; after_results_simp; rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HostRun

end
-- ==== Proof.LibDotStackedRows.lean ====
/-
  A stack of rows times an array of rows, read at one entry.

  For dimension numbers that contract the left operand's axis 2 with the right operand's axis 1, keep the left
  operand's axes 0 and 1 and the right operand's axis 0, and batch nothing — the product  x · wᵀ  of an [a × b × K]
  array (an a × b stack of rows of length K) with a [c × K] array (c rows of length K) — the operand indices at result
  entry (i, s, v) and contraction position q are (i, s, q) and (v, q). So the host's `dot_general` is, at the ideal
  values, the entry's plain sum  ∑ q < K, x (i, s, q) · w (v, q)  over the shared last axis.
-/
import Idealize.ShloMosaic.PureOps.Ideal.Laws
import Idealize.ShloMosaic.Lib.ValueIdx

noncomputable section

open scoped BigOperators

namespace Cert.Lib.DotStackedRows

open Idealize.ShloMosaic Idealize.ShloMosaic.ValueIdx

variable {a b K c : Nat}

/-- Dimension numbers of the product [a, b, K] × [c, K] → [a, b, c]: contract left axis 2 with right axis 1, the
    result's first two axes from the left operand's, its last from the right operand's rows, no batch axis. -/
structure StackedRows (d : DotDims ⟨3, ![a, b, K]⟩ ⟨2, ![c, K]⟩ ⟨3, ![a, b, c]⟩) : Prop where
  lc : d.lhsContracting = [2]
  rc : d.rhsContracting = [1]
  ln : d.lhsNonContracting = [0, 1]
  rn : d.rhsNonContracting = [0]
  lb : d.lhsBatch = []
  rb : d.rhsBatch = []

variable {d : DotDims ⟨3, ![a, b, K]⟩ ⟨2, ![c, K]⟩ ⟨3, ![a, b, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem StackedRows.rank_contr (h : StackedRows d) : d.contr.rank = 1 := by rw [d.rank_contr, h.lc]; rfl

/-- The contracted axis has the shared length K. -/
theorem StackedRows.size_contr (h : StackedRows d) : d.contr.size ⟨0, by rw [h.rank_contr]; exact Nat.one_pos⟩ = K := by
  have := d.size_contr 0 (by rw [h.lc]; exact Nat.one_pos)
  rw [this]; simp only [h.lc]; rfl

/-- The left operand's first coordinate is the result's first. -/
theorem StackedRows.lhs_0 (h : StackedRows d) (j : (⟨3, ![a, b, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_cons_self)]
  simp only [Fin.val_cast]
  exact val_congr j _ _ _ _ (by rw [h.lb, h.ln]; rfl)

/-- The left operand's second coordinate is the result's second. -/
theorem StackedRows.lhs_1 (h : StackedRows d) (j : (⟨3, ![a, b, c]⟩ : Shape).Idx) (k : d.contr.Idx) :
    (d.lhsIdx j k 1).val = (j 1).val := by
  unfold DotDims.lhsIdx
  rw [dif_neg (by rw [h.lb]; exact List.not_mem_nil), dif_pos (by rw [h.ln]; exact List.mem_cons_of_mem _ (List.mem_singleton.mpr rfl))]
  simp only [Fin.val_cast]
  exact val_congr j _ _ _ _ (by rw [h.lb, h.ln]; rfl)

/-- The left operand's last coordinate is the contraction position. -/
theorem StackedRows.lhs_2 (h : StackedRows d) (j : (⟨3, ![a, b, c]⟩ : Shape).Idx) (k : d.contr.Idx) :
    (d.lhsIdx j k 2).val = (k ⟨0, by rw [h.rank_contr]; exact Nat.one_pos⟩).val :=
  d.lhsIdx_val_of_single h.lc j k

/-- The right operand's row is the result's last coordinate: its axis 0 is kept, and comes after the left operand's
    two kept axes among the result's axes. -/
theorem StackedRows.rhs_0 (h : StackedRows d) (j : (⟨3, ![a, b, c]⟩ : Shape).Idx) (k : d.contr.Idx) :
    (d.rhsIdx j k 0).val = (j 2).val := by
  unfold DotDims.rhsIdx
  rw [dif_neg (by rw [h.rb]; exact List.not_mem_nil), dif_pos (by rw [h.rn]; exact List.mem_singleton.mpr rfl)]
  simp only [Fin.val_cast]
  exact val_congr j _ _ _ _ (by rw [h.lb, h.ln, h.rn]; rfl)

/-- The right operand's column is the contraction position. -/
theorem StackedRows.rhs_1 (h : StackedRows d) (j : (⟨3, ![a, b, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, x (i, s, q) · w (v, q). -/
theorem StackedRows.sum_eq (h : StackedRows d) (x : (⟨3, ![a, b, K]⟩ : Shape).Idx → EReal)
    (w : (⟨2, ![c, K]⟩ : Shape).Idx → EReal) (j : (⟨3, ![a, b, c]⟩ : Shape).Idx) :
    ∑ k : d.contr.Idx, x (d.lhsIdx j k) * w (d.rhsIdx j k) = ∑ q : Fin K, x (ix3 (j 0) (j 1) q) * w (ix2 (j 2) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (i, s, q)
  have e1 : d.lhsIdx j ((contrEquiv1 d K h.rank_contr h.size_contr).symm q) = ix3 (j 0) (j 1) q := by
    funext t
    match t with
    | ⟨0, _⟩ => exact Fin.ext (h.lhs_0 j _)
    | ⟨1, _⟩ => exact Fin.ext (h.lhs_1 j _)
    | ⟨2, _⟩ => exact Fin.ext ((h.lhs_2 j _).trans hk)
  -- right operand at (v, q)
  have e2 : d.rhsIdx j ((contrEquiv1 d K h.rank_contr h.size_contr).symm q) = ix2 (j 2) q := by
    funext t
    match t with
    | ⟨0, _⟩ => exact Fin.ext (h.rhs_0 j _)
    | ⟨1, _⟩ => exact Fin.ext ((h.rhs_1 j _).trans hk)
  exact congrArg₂ (· * ·) (congrArg x e1) (congrArg w e2)

/-- The host's `dot_general`, at an entry, at the ideal values (operands of any float formats). -/
theorem StackedRows.dotGeneral_apply {φ₁ φ₂ : FTy} (h : StackedRows d) (prec : Option ContractPrecision)
    (x : FVec Ideal ⟨3, ![a, b, K]⟩ φ₁) (w : FVec Ideal ⟨2, ![c, K]⟩ φ₂) (j : (⟨3, ![a, b, c]⟩ : Shape).Idx) :
    Host.dotGeneral (F := Ideal) d prec x w j = ∑ q : Fin K, x (ix3 (j 0) (j 1) q) * w (ix2 (j 2) q) :=
  (Ideal.dotGeneral_apply d prec .single x w j).trans (h.sum_eq x w j)

end Cert.Lib.DotStackedRows

end
-- ==== Proof.RefValue.lean ====
/-
  The reference's result, entry by entry, at the ideal values.

  Each of the reference's three products contracts the last axis of a stack of rows with the last axis of an array of
  rows, so at an entry it is the plain sum over the shared axis; the bias is copied along the first two axes and the
  factor 2 everywhere. Entry (i, s, o) of the result is therefore `Adapter.entry`:
      (∑ q, x (i, s, q) · W (o, q) + bias o) + (∑ r, (∑ q, x (i, s, q) · A (r, q)) · B (o, r)) · 2 .
-/
import proofs.«179643_j85890755985991_1_alg».proof.Proof.RefRun
import proofs.«179643_j85890755985991_1_alg».proof.Proof.Spec
import proofs.«179643_j85890755985991_1_alg».proof.Proof.LibDotStackedRows
import Idealize.ShloMosaic.Lib.Pipeline.Value
import Idealize.ShloMosaic.Lib.IdealHost

noncomputable section

open scoped BigOperators

namespace Cert.ReferenceIdeal.HostValue

open Cert.ReferenceIdeal Cert.ReferenceIdeal.Gen Cert.ReferenceIdeal.HostRun Idealize.ShloMosaic Idealize.ShloMosaic.ValueIdx
open Cert.Lib.DotStackedRows Cert.Adapter

/-- The input against the weight: rows of length 4096 against the weight's 4096 rows. -/
theorem dims_xw : StackedRows dot_S4x2048x4096_S4096x4096_S4x2048x4096_2_1_01_0_n_n := ⟨rfl, rfl, rfl, rfl, rfl, rfl⟩
/-- The input against the first adapter factor: rows of length 4096 against A's 8 rows. -/
theorem dims_xa : StackedRows dot_S4x2048x4096_S8x4096_S4x2048x8_2_1_01_0_n_n := ⟨rfl, rfl, rfl, rfl, rfl, rfl⟩
/-- The hidden rows against the second adapter factor: rows of length 8 against B's 4096 rows. -/
theorem dims_hb : StackedRows dot_S4x2048x8_S4096x8_S4x2048x4096_2_1_01_0_n_n := ⟨rfl, rfl, rfl, rfl, rfl, rfl⟩

/-- The bias, copied along the first two axes, reads the bias at the last coordinate. -/
theorem bias_apply (bias : FVec Ideal S4096 .f32) (i : Fin 4) (s : Fin 2048) (o : Fin 4096) :
    broadcastInDim S4x2048x4096 ![0, 1, 2] bcast_S1x1x4096_S4x2048x4096_0_1_2
        (broadcastInDim S1x1x4096 ![2] bcast_S4096_S1x1x4096_2 bias) (ix3 i s o) = bias (ix1 o) := by
  refine (broadcastInDim_apply _ _ _ (ix3 i s o) (ix3 (0 : Fin 1) (0 : Fin 1) o) fun ax => ?_).trans ?_
  · match ax with
    | ⟨0, _⟩ => rfl
    | ⟨1, _⟩ => rfl
    | ⟨2, _⟩ => rfl
  · exact broadcastInDim_apply _ _ _ (ix3 (0 : Fin 1) (0 : Fin 1) o) (ix1 o) fun ax => match ax with | ⟨0, _⟩ => rfl

/-- The factor, copied everywhere, reads the extended real its word denotes. -/
theorem two_apply (j : S4x2048x4096.Idx) :
    broadcastInDim S4x2048x4096 ![] bcast_S_S4x2048x4096 (constant (F := Ideal) S_ .f32 0x40000000#32) j = two :=
  broadcastInDim_scalar_apply _ _ j

/-- Entry (i, s, o) of the reference's result. -/
theorem result_apply (x : FVec Ideal S4x2048x4096 .f32) (w : FVec Ideal S4096x4096 .f32) (bias : FVec Ideal S4096 .f32)
    (a : FVec Ideal S8x4096 .f32) (b : FVec Ideal S4096x8 .f32) (i : Fin 4) (s : Fin 2048) (o : Fin 4096) :
    result (F := Ideal) x w bias a b (ix3 i s o) = entry x w bias a b i s o := by
  have h1 : Host.dotGeneral (F := Ideal) dot_S4x2048x4096_S4096x4096_S4x2048x4096_2_1_01_0_n_n none x w (ix3 i s o)
      = ∑ q : Fin 4096, x (ix3 i s q) * w (ix2 o q) := dims_xw.dotGeneral_apply none x w (ix3 i s o)
  have h2 : ∀ r : Fin 8, Host.dotGeneral (F := Ideal) dot_S4x2048x4096_S8x4096_S4x2048x8_2_1_01_0_n_n none x a (ix3 i s r)
      = ∑ q : Fin 4096, x (ix3 i s q) * a (ix2 r q) := fun r => dims_xa.dotGeneral_apply none x a (ix3 i s r)
  have h3 : Host.dotGeneral (F := Ideal) dot_S4x2048x8_S4096x8_S4x2048x4096_2_1_01_0_n_n none
        (Host.dotGeneral (F := Ideal) dot_S4x2048x4096_S8x4096_S4x2048x8_2_1_01_0_n_n none x a) b (ix3 i s o)
      = ∑ r : Fin 8, Host.dotGeneral (F := Ideal) dot_S4x2048x4096_S8x4096_S4x2048x8_2_1_01_0_n_n none x a (ix3 i s r) * b (ix2 o r) :=
    dims_hb.dotGeneral_apply none _ b (ix3 i s o)
  unfold result entry
  rw [addf_apply, addf_apply, mulf_apply, h1, h3, bias_apply, two_apply]
  simp only [h2]

end Cert.ReferenceIdeal.HostValue

end
-- ==== Proof.lean ====
/-
  The kernel computes, on an 8 × 8 grid of 1024 × 512 blocks, (X · Wt + bias) + ((X · At) · Bt) · 2 over the flattened
  input X and the transposed matrices; the reference computes (x · Wᵀ + bias) + ((x · Aᵀ) · Bᵀ) · 2 by three
  contractions of last axes. W is dequantised by the same operations in both programs. At the ideal values every
  product is the plain sum over its shared axis, every change of float format the identity, and the two results are,
  entry by entry, the same sums of the same products in the same grouping (`Adapter.entry`): no law of arithmetic
  joins them, so the precondition (finite inputs) is never opened.

  The two kernel programs' frames are the generated frame certificates; the reference's frame is its run with the
  result dropped; the ideal pass rewrote nothing, so the kernel's idealization is its own text; and the value claim
  pairs the kernel program's run (result named by the blocks-to-array argument) with the reference's run.
-/
import proofs.«179643_j85890755985991_1_alg».proof.Defs
import proofs.«179643_j85890755985991_1_alg».proof.Proof.Gen.Kernel
import proofs.«179643_j85890755985991_1_alg».proof.Proof.Gen.Kernel.Skeleton
import proofs.«179643_j85890755985991_1_alg».proof.Proof.Gen.Kernel.Launch
import proofs.«179643_j85890755985991_1_alg».proof.Proof.Gen.Kernel.Points
import proofs.«179643_j85890755985991_1_alg».proof.Proof.Gen.Kernel.Frame
import proofs.«179643_j85890755985991_1_alg».proof.Proof.Gen.KernelIdeal
import proofs.«179643_j85890755985991_1_alg».proof.Proof.Gen.KernelIdeal.Skeleton
import proofs.«179643_j85890755985991_1_alg».proof.Proof.Gen.KernelIdeal.Launch
import proofs.«179643_j85890755985991_1_alg».proof.Proof.Gen.KernelIdeal.Points
import proofs.«179643_j85890755985991_1_alg».proof.Proof.Gen.KernelIdeal.Frame
import proofs.«179643_j85890755985991_1_alg».proof.Proof.Gen.ReferenceIdeal
import proofs.«179643_j85890755985991_1_alg».proof.Proof.Gen.Pre_finite_inputs
import proofs.«179643_j85890755985991_1_alg».proof.Proof.KerRun
import proofs.«179643_j85890755985991_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- Both programs dequantise the weight by the same operations, so of the same codes and scales they make the same
    matrix. -/
theorem weight_eq (codes : IVec Cert.KernelIdeal.S262144x64 32) (scales : FVec Ideal Cert.KernelIdeal.S262144 .f32) :
    Cert.ReferenceIdeal.HostRun.weight (F := Ideal) codes scales = Cert.KernelIdeal.Host.weight (F := Ideal) codes scales := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HostRun.run (F := Ideal) m ρ)

/-- From memories that agree on the six arguments both programs end with the same result: entry (i, s, o) of either is
    `Adapter.entry` of the arguments and the one dequantised weight. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2.1, (hagree c).2.2.2.2.1, (hagree c).2.2.2.2.2]
  funext j
  obtain ⟨i, s, o, rfl⟩ : ∃ (i : Fin 4) (s : Fin 2048) (o : Fin 4096), j = ix3 i s o := ⟨j 0, j 1, j 2, eq_ix3 j⟩
  rw [Cert.ReferenceIdeal.HostValue.result_apply, weight_eq]
  exact (Cert.KernelIdeal.Result.out_apply m c i s o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
